-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000 : Shape := ⟨1, ![625000]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : IVec S625000 32) (main_arg2 : IVec S625000 32) (main_arg3 : FVec F S1x256 .f32) (main_arg4 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x256 .f32 := Host.absf main_arg3
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x128 : Shape := ⟨2, ![100000, 128]⟩
abbrev S625000 : Shape := ⟨1, ![625000]⟩
abbrev S1x256 : Shape := ⟨2, ![1, 256]⟩
abbrev S1 : Shape := ⟨1, ![1]⟩
abbrev S1x128 : Shape := ⟨2, ![1, 128]⟩
abbrev S_ : Shape := ⟨0, ![]⟩
abbrev S102400x128 : Shape := ⟨2, ![102400, 128]⟩
abbrev S1x102400 : Shape := ⟨2, ![1, 102400]⟩
abbrev S12800x128 : Shape := ⟨2, ![12800, 128]⟩
abbrev S1x12800 : Shape := ⟨2, ![1, 12800]⟩
abbrev S1x100000 : Shape := ⟨2, ![1, 100000]⟩
abbrev S100000 : Shape := ⟨1, ![100000]⟩
abbrev S625000x1 : Shape := ⟨2, ![625000, 1]⟩

abbrev nBuf : Space → Nat
  | .hbm => 39
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S625000, .i32⟩
  | .hbm, ⟨2, _⟩ => ⟨S625000, .i32⟩
  | .hbm, ⟨3, _⟩ => ⟨S1x256, .f32⟩
  | .hbm, ⟨4, _⟩ => ⟨S1, .f32⟩
  | .hbm, ⟨5, _⟩ => ⟨S1x128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S102400x128, .f32⟩
  | .hbm, ⟨10, _⟩ => ⟨S1x102400, .f32⟩
  | .hbm, ⟨11, _⟩ => ⟨S1x102400, .f32⟩
  | .hbm, ⟨12, _⟩ => ⟨S1x100000, .f32⟩
  | .hbm, ⟨13, _⟩ => ⟨S100000, .f32⟩
  | .hbm, ⟨14, _⟩ => ⟨S1x100000, .f32⟩
  | .hbm, ⟨15, _⟩ => ⟨S100000, .f32⟩
  | .hbm, ⟨16, _⟩ => ⟨S_, .i32⟩
  | .hbm, ⟨17, _⟩ => ⟨S625000, .i32⟩
  | .hbm, ⟨18, _⟩ => ⟨S625000, .i1⟩
  | .hbm, ⟨19, _⟩ => ⟨S_, .i32⟩
  | .hbm, ⟨20, _⟩ => ⟨S625000, .i32⟩
  | .hbm, ⟨21, _⟩ => ⟨S625000, .i32⟩
  | .hbm, ⟨22, _⟩ => ⟨S625000, .i32⟩
  | .hbm, ⟨23, _⟩ => ⟨S625000x1, .i32⟩
  | .hbm, ⟨24, _⟩ => ⟨S625000, .f32⟩
  | .hbm, ⟨25, _⟩ => ⟨S_, .i32⟩
  | .hbm, ⟨26, _⟩ => ⟨S625000, .i32⟩
  | .hbm, ⟨27, _⟩ => ⟨S625000, .i1⟩
  | .hbm, ⟨28, _⟩ => ⟨S_, .i32⟩
  | .hbm, ⟨29, _⟩ => ⟨S625000, .i32⟩
  | .hbm, ⟨30, _⟩ => ⟨S625000, .i32⟩
  | .hbm, ⟨31, _⟩ => ⟨S625000, .i32⟩
  | .hbm, ⟨32, _⟩ => ⟨S625000x1, .i32⟩
  | .hbm, ⟨33, _⟩ => ⟨S625000, .f32⟩
  | .hbm, ⟨34, _⟩ => ⟨S625000, .f32⟩
  | .hbm, ⟨35, _⟩ => ⟨S_, .f32⟩
  | .hbm, ⟨36, _⟩ => ⟨S625000, .f32⟩
  | .hbm, ⟨37, _⟩ => ⟨S625000, .f32⟩
  | .hbm, ⟨38, _⟩ => ⟨S625000x1, .f32⟩
  | .local _ .vmem, ⟨0, _⟩ => ⟨S12800x128, .f32⟩
  | .local _ .vmem, ⟨1, _⟩ => ⟨S12800x128, .f32⟩
  | .local _ .vmem, ⟨2, _⟩ => ⟨S1x128, .f32⟩
  | .local _ .vmem, ⟨3, _⟩ => ⟨S1x128, .f32⟩
  | .local _ .vmem, ⟨4, _⟩ => ⟨S1x12800, .f32⟩
  | .local _ .vmem, ⟨5, _⟩ => ⟨S1x12800, .f32⟩
  | .local _ .vmem, ⟨6, _⟩ => ⟨S1x12800, .f32⟩
  | .local _ .vmem, ⟨7, _⟩ => ⟨S1x12800, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x12800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1x256_S1x128_0_0 : S1x256.Slices ![0, 0] S1x128
  slices_S1x256_S1x128_0_128 : S1x256.Slices ![0, 128] S1x128
  pads_S100000x128_S102400x128_024000_000 : S100000x128.Pads (![0, 0] : Fin 2 → Nat) ![2400, 0] ![0, 0] S102400x128
  h_S_ : 0 < S_.numel
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x12800_S1x12800_0_0 : ∀ a, (![0, 0] : Fin 2 → Nat) a + S1x12800.size a ≤ S1x12800.size a
  h_S1x12800 : 0 < S1x12800.numel
  slices_S1x102400_S1x100000_0_0 : S1x102400.Slices ![0, 0] S1x100000
  shapeCasts_S1x100000_S100000 : S1x100000.ShapeCasts S100000
  bcast_S_S625000 : S_.BroadcastsInDim S625000 (![] : Fin 0 → Fin S625000.rank)
  bcast_S625000_S625000x1_0 : S625000.BroadcastsInDim S625000x1 (![0] : Fin 1 → Fin S625000x1.rank)
  shapeCasts_S1_S_ : S1.ShapeCasts S_
  shapeCasts_S625000_S625000x1 : S625000.ShapeCasts S625000x1
  dot_S1x128_S12800x128_S1x12800_1_1_0_0_n_n_wf : DotDims.WF S1x128 S12800x128 S1x12800 [1] [1] [0] [0] [] []
  gather_S100000_S625000x1_S625000_n_0_n_n_0_1_1_wf : GatherDims.WF S100000 S625000x1 S625000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S102400x128.size a
  hwx0_0 : ∀ i : grid0.Coords, EltTy.bits .f32 = 32 ∨ (Rect.block (s := S102400x128) S12800x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12800.size a ≤ S1x102400.size a
  hwx0_3 : ∀ i : grid0.Coords, EltTy.bits .f32 = 32 ∨ (Rect.block (s := S1x102400) S1x12800.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12800.size a ≤ S1x102400.size a
  hwx0_4 : ∀ i : grid0.Coords, EltTy.bits .f32 = 32 ∨ (Rect.block (s := S1x102400) S1x12800.size (cc0_transform_4 i) (hinb0_4 i)).WholeWords (EltTy.packing .f32)

variable [Facts₀]

def dot_S1x128_S12800x128_S1x12800_1_1_0_0_n_n : DotDims S1x128 S12800x128 S1x12800 where
  lhsContracting := [1]
  rhsContracting := [1]
  lhsNonContracting := [0]
  rhsNonContracting := [0]
  lhsBatch := []
  rhsBatch := []
  wf := dot_S1x128_S12800x128_S1x12800_1_1_0_0_n_n_wf
def gather_S100000_S625000x1_S625000_n_0_n_n_0_1_1 : GatherDims S100000 S625000x1 S625000 where
  offsetDims := []
  collapsedSliceDims := [0]
  operandBatchingDims := []
  startIndicesBatchingDims := []
  startIndexMap := [0]
  indexVectorDim := 1
  sliceSizes := ![1]
  wf := gather_S100000_S625000x1_S625000_n_0_n_n_0_1_1_wf

abbrev win0_0 : Pipeline.Window sig grid0 :=
  Pipeline.Window.ofSpec (Memref.whole main_v2) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x12800.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x12800.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S625000 : Shape := ⟨1, ![625000]⟩
abbrev S1x256 : Shape := ⟨2, ![1, 256]⟩
abbrev S1 : Shape := ⟨1, ![1]⟩
abbrev S1x128 : Shape := ⟨2, ![1, 128]⟩
abbrev S_ : Shape := ⟨0, ![]⟩
abbrev S625000x1 : Shape := ⟨2, ![625000, 1]⟩
abbrev S625000x128 : Shape := ⟨2, ![625000, 128]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000, .i32⟩
  | .hbm, ⟨2, _⟩ => ⟨S625000, .i32⟩
  | .hbm, ⟨3, _⟩ => ⟨S1x256, .f32⟩
  | .hbm, ⟨4, _⟩ => ⟨S1, .f32⟩
  | .hbm, ⟨5, _⟩ => ⟨S1x128, .f32⟩
  | .hbm, ⟨6, _⟩ => ⟨S1x128, .f32⟩
  | .hbm, ⟨7, _⟩ => ⟨S_, .i32⟩
  | .hbm, ⟨8, _⟩ => ⟨S625000, .i32⟩
  | .hbm, ⟨9, _⟩ => ⟨S625000, .i1⟩
  | .hbm, ⟨10, _⟩ => ⟨S_, .i32⟩
  | .hbm, ⟨11, _⟩ => ⟨S625000, .i32⟩
  | .hbm, ⟨12, _⟩ => ⟨S625000, .i32⟩
  | .hbm, ⟨13, _⟩ => ⟨S625000, .i32⟩
  | .hbm, ⟨14, _⟩ => ⟨S625000x1, .i32⟩
  | .hbm, ⟨15, _⟩ => ⟨S625000x128, .f32⟩
  | .hbm, ⟨16, _⟩ => ⟨S_, .i32⟩
  | .hbm, ⟨17, _⟩ => ⟨S625000, .i32⟩
  | .hbm, ⟨18, _⟩ => ⟨S625000, .i1⟩
  | .hbm, ⟨19, _⟩ => ⟨S_, .i32⟩
  | .hbm, ⟨20, _⟩ => ⟨S625000, .i32⟩
  | .hbm, ⟨21, _⟩ => ⟨S625000, .i32⟩
  | .hbm, ⟨22, _⟩ => ⟨S625000, .i32⟩
  | .hbm, ⟨23, _⟩ => ⟨S625000x1, .i32⟩
  | .hbm, ⟨24, _⟩ => ⟨S625000x128, .f32⟩
  | .hbm, ⟨25, _⟩ => ⟨S625000x1, .f32⟩
  | .hbm, ⟨26, _⟩ => ⟨S625000x1, .f32⟩
  | .hbm, ⟨27, _⟩ => ⟨S625000x1, .f32⟩
  | .hbm, ⟨28, _⟩ => ⟨S1x1, .f32⟩
  | .hbm, ⟨29, _⟩ => ⟨S625000x1, .f32⟩
  | .hbm, ⟨30, _⟩ => ⟨S625000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S1x256_S1x128_0_0 : S1x256.Slices ![0, 0] S1x128
  slices_S1x256_S1x128_0_128 : S1x256.Slices ![0, 128] S1x128
  bcast_S_S625000 : S_.BroadcastsInDim S625000 (![] : Fin 0 → Fin S625000.rank)
  bcast_S625000_S625000x1_0 : S625000.BroadcastsInDim S625000x1 (![0] : Fin 1 → Fin S625000x1.rank)
  bcast_S1_S1x1_1 : S1.BroadcastsInDim S1x1 (![1] : Fin 1 → Fin S1x1.rank)
  bcast_S1x1_S625000x1_0_1 : S1x1.BroadcastsInDim S625000x1 (![0, 1] : Fin 2 → Fin S625000x1.rank)
  gather_S100000x128_S625000x1_S625000x128_1_0_n_n_0_1_1128_wf : GatherDims.WF S100000x128 S625000x1 S625000x128 [1] [0] [] [0] [] 1 ![1, 128]
  dot_S625000x128_S1x128_S625000x1_1_1_0_0_n_n_wf : DotDims.WF S625000x128 S1x128 S625000x1 [1] [1] [0] [0] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S625000x128_S1x128_S625000x1_1_1_0_0_n_n : DotDims S625000x128 S1x128 S625000x1 where
  lhsContracting := [1]
  rhsContracting := [1]
  lhsNonContracting := [0]
  rhsNonContracting := [0]
  lhsBatch := []
  rhsBatch := []
  wf := dot_S625000x128_S1x128_S625000x1_1_1_0_0_n_n_wf

class Facts : Prop extends Facts₀ where

variable [Facts]
-- ==== Proof.Projection.lean ====
/-
  WHAT THE PROJECTION KERNEL LEAVES IN ITS TWO OUTPUT ARRAYS.

  The kernel walks the padded node table `hp : [102400, 128]` in eight blocks of 12800 rows. At block `t` it holds
  rows `12800·t … 12800·t + 12799` of `hp` and the two weight rows `wu, wv : [1, 128]` (both whole at every block), and
  writes, into columns `12800·t …` of each of two output rows `[1, 102400]`, the product of a weight row with the
  transposed block: entry `(0, j)` of the block's output is `Σ_k w[0, k] · block[j, k]`, a product onto a zero
  accumulator. So each output array, once all eight blocks are written back, is ONE function of `hp` and its weight row:

      out[0, n] = Σ_k w[0, k] · hp[n, k]          (`rowsAgainst hp w`)

  for every `n < 102400`: block `t` of that function is what point `t` writes, and the eight blocks tile the row.
-/
import proofs.«420921_j30202210026092_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Projection

open Cert.KernelIdeal Cert.KernelIdeal.Gen Idealize.ShloMosaic Idealize.ShloMosaic.TcCoe Idealize.SL.Sem
open Idealize.ShloMosaic.ValueIdx Idealize.ShloMosaic.Pipeline

/-- Every row of a table `[102400, 128]` against one weight row `[1, 128]`, laid out as a row `[1, 102400]`. -/
def rowsAgainst (hp : S102400x128.Idx → EReal) (w : S1x128.Idx → EReal) : S1x102400.Idx → EReal :=
  fun i => ∑ k : Fin 128, w (ix2 (i 0) k) * hp (ix2 (i 1) k)

/-! ## The product's operand indices, axis by axis -/

theorem lhs_axis0 (i : S1x12800.Idx) (q : dot_S1x128_S12800x128_S1x12800_1_1_0_0_n_n.contr.Idx) :
    (dot_S1x128_S12800x128_S1x12800_1_1_0_0_n_n.lhsIdx i q 0).val = (i 0).val := by
  unfold DotDims.lhsIdx
  rw [dif_neg (show ¬(0 : Fin S1x128.rank) ∈ dot_S1x128_S12800x128_S1x12800_1_1_0_0_n_n.lhsBatch by decide), dif_pos (show (0 : Fin S1x128.rank) ∈ dot_S1x128_S12800x128_S1x12800_1_1_0_0_n_n.lhsNonContracting by decide)]
  rfl
theorem lhs_axis1 (i : S1x12800.Idx) (q : dot_S1x128_S12800x128_S1x12800_1_1_0_0_n_n.contr.Idx) :
    (dot_S1x128_S12800x128_S1x12800_1_1_0_0_n_n.lhsIdx i q 1).val = (q ⟨0, by decide⟩).val :=
  dot_S1x128_S12800x128_S1x12800_1_1_0_0_n_n.lhsIdx_val_of_single rfl i q
theorem rhs_axis0 (i : S1x12800.Idx) (q : dot_S1x128_S12800x128_S1x12800_1_1_0_0_n_n.contr.Idx) :
    (dot_S1x128_S12800x128_S1x12800_1_1_0_0_n_n.rhsIdx i q 0).val = (i 1).val := by
  unfold DotDims.rhsIdx
  rw [dif_neg (show ¬(0 : Fin S12800x128.rank) ∈ dot_S1x128_S12800x128_S1x12800_1_1_0_0_n_n.rhsBatch by decide), dif_pos (show (0 : Fin S12800x128.rank) ∈ dot_S1x128_S12800x128_S1x12800_1_1_0_0_n_n.rhsNonContracting by decide)]
  rfl
theorem rhs_axis1 (i : S1x12800.Idx) (q : dot_S1x128_S12800x128_S1x12800_1_1_0_0_n_n.contr.Idx) :
    (dot_S1x128_S12800x128_S1x12800_1_1_0_0_n_n.rhsIdx i q 1).val = (q ⟨0, by decide⟩).val :=
  dot_S1x128_S12800x128_S1x12800_1_1_0_0_n_n.rhsIdx_val_of_single rfl i q

/-- A weight row times a transposed block of rows, onto a zero accumulator, read at column `j`: the sum over the 128
    features of the weight times the block's entry in row `j`. -/
theorem weightTimesBlock_apply (w : FVec Ideal S1x128 .f32) (x : FVec Ideal S12800x128 .f32) (j : S1x12800.Idx) :
    matmul dot_S1x128_S12800x128_S1x12800_1_1_0_0_n_n (some .fp32) w x (constant S1x12800 .f32 0x00000000#32) j
      = ∑ k : Fin 128, w (ix2 (j 0) k) * x (ix2 (j 1) k) := by
  simp only [matmul]
  rw [Ideal.matmul_constant_zero_apply, ← Equiv.sum_comp (contrEquiv1 dot_S1x128_S12800x128_S1x12800_1_1_0_0_n_n 128 rfl rfl).symm]
  refine Finset.sum_congr rfl fun k _ => ?_
  have hk := contrEquiv1_symm_val dot_S1x128_S12800x128_S1x12800_1_1_0_0_n_n 128 rfl rfl k
  have el : dot_S1x128_S12800x128_S1x12800_1_1_0_0_n_n.lhsIdx j ((contrEquiv1 dot_S1x128_S12800x128_S1x12800_1_1_0_0_n_n 128 rfl rfl).symm k) = ix2 (j 0) k := funext fun a => Fin.ext (by
    match a with
    | ⟨0, _⟩ => exact lhs_axis0 _ _
    | ⟨1, _⟩ => exact (lhs_axis1 _ _).trans hk)
  have er : dot_S1x128_S12800x128_S1x12800_1_1_0_0_n_n.rhsIdx j ((contrEquiv1 dot_S1x128_S12800x128_S1x12800_1_1_0_0_n_n 128 rfl rfl).symm k) = ix2 (j 1) k := funext fun a => Fin.ext (by
    match a with
    | ⟨0, _⟩ => exact rhs_axis0 _ _
    | ⟨1, _⟩ => exact (rhs_axis1 _ _).trans hk)
  rw [el, er]
  rfl

/-- The first output's payload at column `j`. -/
theorem payFst_apply (x0 : Vec Ideal S12800x128 .f32) (x1 : Vec Ideal S1x128 .f32) (j : S1x12800.Idx) :
    k0_pay2 (F := Ideal) x0 x1 j = ∑ k : Fin 128, x1 (ix2 (j 0) k) * x0 (ix2 (j 1) k) := by
  unfold k0_pay2 k0_pay1
  simp only [shapeCast_self]
  exact weightTimesBlock_apply x1 x0 j

/-- The second output's payload at column `j`. -/
theorem paySnd_apply (x0 : Vec Ideal S12800x128 .f32) (x2 : Vec Ideal S1x128 .f32) (j : S1x12800.Idx) :
    k0_pay3 (F := Ideal) x0 x2 j = ∑ k : Fin 128, x2 (ix2 (j 0) k) * x0 (ix2 (j 1) k) := by
  unfold k0_pay3 k0_pay1
  simp only [shapeCast_self]
  exact weightTimesBlock_apply x2 x0 j

/-! ## From the eight blocks to the two arrays -/

variable (m : (ℓ : Loc nD τ sig) → Buf (Elt Ideal) ℓ)

/-- The padded node table, and the two weight rows, as the region finds them, at their literal types. -/
abbrev tablePad (c : Dev nD) : S102400x128.Idx → EReal := V m c main_v2
abbrev weightFst (c : Dev nD) : S1x128.Idx → EReal := V m c main_v0
abbrev weightSnd (c : Dev nD) : S1x128.Idx → EReal := V m c main_v1

theorem zeroOffsets : (![0, 0] : Fin 2 → Nat) = fun _ => 0 := funext fun a => by fin_cases a <;> rfl

/-- The printed index maps at point `t`, decided over the eight points: the node table's window and the two output
    windows move with the point (on the rows, respectively on the columns); the weight rows stay at block zero. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- WHAT POINT `t` WRITES BACK INTO THE FIRST OUTPUT is block `t` of every padded row against the first weight row:
    column `j` of the block is the weight row against row `j` of the point's block of the table, and that row is row
    `12800·t + j` of the table, the very column of the output the block's entry lands in. -/
theorem flushedFst_eq (c : Dev nD) (t : Fin cfg0.N) :
    (dats m 0 c).flushed 3 t
      = ((cfg0.win 3).blk t).view.read (Elt Ideal) (rowsAgainst (tablePad m c) (weightFst m c)) := by
  show (cfg0.win 3).cut (grid0.coords t) ((dats m 0 c).after 3 t) = _
  rw [after0_3]
  unfold out0_3
  rw [View.canon_unit_zero zeroOffsets]
  simp only [View.ld_unit_zero (S := S12800x128) zeroOffsets, View.ld_unit_zero (S := S1x128) zeroOffsets]
  obtain ⟨e00, e01, e10, e11, e20, e21, e30, e31, e40, e41⟩ := blockIndices t
  funext j
  refine (payFst_apply (iblk m c 0 t) (iblk m c 1 t) j).trans ?_
  show ∑ k : Fin 128, weightFst m c (((cfg0.win 1).blk t).view.emb (ix2 (j 0) k)) * tablePad m c (((cfg0.win 0).blk t).view.emb (ix2 (j 1) k))
     = ∑ k : Fin 128, weightFst m c (ix2 ((((cfg0.win 3).blk t).view.emb j) 0) k) * tablePad m c (ix2 ((((cfg0.win 3).blk t).view.emb j) 1) k)
  refine Finset.sum_congr rfl fun k _ => ?_
  have h1 : ((cfg0.win 1).blk t).view.emb (ix2 (j 0) k) = ix2 ((((cfg0.win 3).blk t).view.emb j) 0) k := by
    funext a; apply Fin.ext
    match a with
    | ⟨0, _⟩ => show win0_1.index t (0 : Fin 2) * 1 + 1 * (j 0).val = win0_3.index t (0 : Fin 2) * 1 + 1 * (j 0).val; omega
    | ⟨1, _⟩ => show win0_1.index t (1 : Fin 2) * 128 + 1 * k.val = k.val; omega
  have h0 : ((cfg0.win 0).blk t).view.emb (ix2 (j 1) k) = ix2 ((((cfg0.win 3).blk t).view.emb j) 1) k := by
    funext a; apply Fin.ext
    match a with
    | ⟨0, _⟩ => show win0_0.index t (0 : Fin 2) * 12800 + 1 * (j 1).val = win0_3.index t (1 : Fin 2) * 12800 + 1 * (j 1).val; omega
    | ⟨1, _⟩ => show win0_0.index t (1 : Fin 2) * 128 + 1 * k.val = k.val; omega
  rw [h0, h1]
  rfl

/-- WHAT POINT `t` WRITES BACK INTO THE SECOND OUTPUT: the same block of every padded row against the second weight row. -/
theorem flushedSnd_eq (c : Dev nD) (t : Fin cfg0.N) :
    (dats m 0 c).flushed 4 t
      = ((cfg0.win 4).blk t).view.read (Elt Ideal) (rowsAgainst (tablePad m c) (weightSnd m c)) := by
  show (cfg0.win 4).cut (grid0.coords t) ((dats m 0 c).after 4 t) = _
  rw [after0_4]
  unfold out0_4
  rw [View.canon_unit_zero zeroOffsets]
  simp only [View.ld_unit_zero (S := S12800x128) zeroOffsets, View.ld_unit_zero (S := S1x128) zeroOffsets]
  obtain ⟨e00, e01, e10, e11, e20, e21, e30, e31, e40, e41⟩ := blockIndices t
  funext j
  refine (paySnd_apply (iblk m c 0 t) (iblk m c 2 t) j).trans ?_
  show ∑ k : Fin 128, weightSnd m c (((cfg0.win 2).blk t).view.emb (ix2 (j 0) k)) * tablePad m c (((cfg0.win 0).blk t).view.emb (ix2 (j 1) k))
     = ∑ k : Fin 128, weightSnd m c (ix2 ((((cfg0.win 4).blk t).view.emb j) 0) k) * tablePad m c (ix2 ((((cfg0.win 4).blk t).view.emb j) 1) k)
  refine Finset.sum_congr rfl fun k _ => ?_
  have h2 : ((cfg0.win 2).blk t).view.emb (ix2 (j 0) k) = ix2 ((((cfg0.win 4).blk t).view.emb j) 0) k := by
    funext a; apply Fin.ext
    match a with
    | ⟨0, _⟩ => show win0_2.index t (0 : Fin 2) * 1 + 1 * (j 0).val = win0_4.index t (0 : Fin 2) * 1 + 1 * (j 0).val; omega
    | ⟨1, _⟩ => show win0_2.index t (1 : Fin 2) * 128 + 1 * k.val = k.val; omega
  have h0 : ((cfg0.win 0).blk t).view.emb (ix2 (j 1) k) = ix2 ((((cfg0.win 4).blk t).view.emb j) 1) k := by
    funext a; apply Fin.ext
    match a with
    | ⟨0, _⟩ => show win0_0.index t (0 : Fin 2) * 12800 + 1 * (j 1).val = win0_4.index t (1 : Fin 2) * 12800 + 1 * (j 1).val; omega
    | ⟨1, _⟩ => show win0_0.index t (1 : Fin 2) * 128 + 1 * k.val = k.val; omega
  rw [h0, h2]
  rfl

/-- An index of the first output array lies in point `t`'s block iff each coordinate is in the block's range. -/
theorem mem_blockFst (t : Fin cfg0.N) (i : S1x102400.Idx) :
    i ∈ ((cfg0.win 3).blk t).view.set ↔ ∀ a : Fin 2, win0_3.index t a * S1x12800.size a ≤ (i a).val ∧ (i a).val < win0_3.index t a * S1x12800.size a + S1x12800.size a := by
  show i ∈ ((View.whole main_v3_0).slice (win0_3.rect t)).set ↔ _
  rw [View.set_slice_whole, Rect.mem_set_unit]
  exact Iff.rfl

/-- The same for the second output array. -/
theorem mem_blockSnd (t : Fin cfg0.N) (i : S1x102400.Idx) :
    i ∈ ((cfg0.win 4).blk t).view.set ↔ ∀ a : Fin 2, win0_4.index t a * S1x12800.size a ≤ (i a).val ∧ (i a).val < win0_4.index t a * S1x12800.size a + S1x12800.size a := by
  show i ∈ ((View.whole main_v3_1).slice (win0_4.rect t)).set ↔ _
  rw [View.set_slice_whole, Rect.mem_set_unit]
  exact Iff.rfl

/-- The eight blocks tile the row: column `n` lies in the block of point `n / 12800`. -/
theorem coverFst (i : S1x102400.Idx) :
    ∃ t : Fin cfg0.N, (cfg0.win 3).flush t = true ∧ i ∈ ((cfg0.win 3).blk t).view.set := by
  have hi0 : (i 0).val < 1 := (i 0).isLt
  have hi1 : (i 1).val < 102400 := (i 1).isLt
  have hN : cfg0.N = 8 := N_0
  have ht : (i 1).val / 12800 < cfg0.N := by omega
  refine ⟨⟨(i 1).val / 12800, ht⟩, flush0_3 _, ?_⟩
  rw [mem_blockFst]
  obtain ⟨-, -, -, -, -, -, e30, e31, -, -⟩ := blockIndices ⟨(i 1).val / 12800, ht⟩
  have e31' : win0_3.index ⟨(i 1).val / 12800, ht⟩ (1 : Fin 2) = (i 1).val / 12800 := e31
  intro a
  match a with
  | ⟨0, _⟩ =>
    show win0_3.index ⟨(i 1).val / 12800, ht⟩ (0 : Fin 2) * 1 ≤ (i 0).val ∧ (i 0).val < win0_3.index ⟨(i 1).val / 12800, ht⟩ (0 : Fin 2) * 1 + 1
    omega
  | ⟨1, _⟩ =>
    show win0_3.index ⟨(i 1).val / 12800, ht⟩ (1 : Fin 2) * 12800 ≤ (i 1).val ∧ (i 1).val < win0_3.index ⟨(i 1).val / 12800, ht⟩ (1 : Fin 2) * 12800 + 12800
    omega

theorem coverSnd (i : S1x102400.Idx) :
    ∃ t : Fin cfg0.N, (cfg0.win 4).flush t = true ∧ i ∈ ((cfg0.win 4).blk t).view.set := by
  have hi0 : (i 0).val < 1 := (i 0).isLt
  have hi1 : (i 1).val < 102400 := (i 1).isLt
  have hN : cfg0.N = 8 := N_0
  have ht : (i 1).val / 12800 < cfg0.N := by omega
  refine ⟨⟨(i 1).val / 12800, ht⟩, flush0_4 _, ?_⟩
  rw [mem_blockSnd]
  obtain ⟨-, -, -, -, -, -, -, -, e40, e41⟩ := blockIndices ⟨(i 1).val / 12800, ht⟩
  have e41' : win0_4.index ⟨(i 1).val / 12800, ht⟩ (1 : Fin 2) = (i 1).val / 12800 := e41
  intro a
  match a with
  | ⟨0, _⟩ =>
    show win0_4.index ⟨(i 1).val / 12800, ht⟩ (0 : Fin 2) * 1 ≤ (i 0).val ∧ (i 0).val < win0_4.index ⟨(i 1).val / 12800, ht⟩ (0 : Fin 2) * 1 + 1
    omega
  | ⟨1, _⟩ =>
    show win0_4.index ⟨(i 1).val / 12800, ht⟩ (1 : Fin 2) * 12800 ≤ (i 1).val ∧ (i 1).val < win0_4.index ⟨(i 1).val / 12800, ht⟩ (1 : Fin 2) * 12800 + 12800
    omega

/-- THE FIRST OUTPUT ARRAY after the eight write-backs: every padded row against the first weight row. -/
theorem arrayFst (c : Dev nD) : (dats m 0 c).arrAt 3 cfg0.N = rowsAgainst (tablePad m c) (weightFst m c) :=
  (dats m 0 c).arrAt_eq_of_cover 3 (rowsAgainst (tablePad m c) (weightFst m c)) (fun t _ => flushedFst_eq m c t) coverFst

/-- THE SECOND OUTPUT ARRAY: every padded row against the second weight row. -/
theorem arraySnd (c : Dev nD) : (dats m 0 c).arrAt 4 cfg0.N = rowsAgainst (tablePad m c) (weightSnd m c) :=
  (dats m 0 c).arrAt_eq_of_cover 4 (rowsAgainst (tablePad m c) (weightSnd m c)) (fun t _ => flushedSnd_eq m c t) coverSnd

end Cert.KernelIdeal.Projection

end
-- ==== Proof.EdgeScore.lean ====
/-
  THE EDGE SCORE, as one function of the five argument arrays.

  Every edge `e` has two endpoints, `src[e]` and `dst[e]`, each a 32-bit word naming a row of the node table
  `h : [100000, 128]`. The score of the edge is the first endpoint's row against the first half of the weight row
  `W : [1, 256]`, plus the second endpoint's row against the second half, plus the bias `b[0]`:

      score[e, 0] = Σ_k W[0, k] · h[node(src[e]), k]  +  Σ_k W[0, 128 + k] · h[node(dst[e]), k]  +  b[0].

  Which row a word names (`node`): a negative word has the number of rows added to it (Python's wrap-around), and the
  result, read as a signed integer, is clamped into `[0, 99999]` (a gather clamps its start index so that the slice
  fits). Both programs normalise their indices by exactly these operations, so `node` keeps them as they are printed
  and nothing here evaluates them.

  The two programs differ in where the sum over `k` is taken. One gathers the two rows and then contracts each with
  its half of the weights (row times weight); the other contracts EVERY row of the table with each half first, into two
  flat tables of 100000 numbers, and gathers single numbers (weight times row). At one edge both are the sum above:
  the only law between them is the commutativity of the product of two extended reals, which holds without any
  finiteness assumption, and the sums run over the same 128 terms.
-/
import Idealize.ShloMosaic.PureOps.Ideal
import Idealize.ShloMosaic.Lib.ValueIdx

noncomputable section

open scoped BigOperators

namespace Cert.EdgeScore

open Idealize.ShloMosaic Idealize.ShloMosaic.ValueIdx

/-- The row of the node table an endpoint word names: a negative word wraps around by the number of rows, and the
    signed reading of the result is clamped into the table. -/
def node (w : BitVec 32) : Fin 100000 :=
  ⟨min (Scalar.select (IntOp.cmpi .slt w 0#32) (IntOp.addi w 100000#32) w).toInt.toNat (100000 - 1), by omega⟩

/-- Row `n` of the node table against the first half of the weight row. -/
def projFst (h : (⟨2, ![100000, 128]⟩ : Shape).Idx → EReal) (W : (⟨2, ![1, 256]⟩ : Shape).Idx → EReal)
    (n : Fin 100000) : EReal :=
  ∑ k : Fin 128, W (ix2 (0 : Fin 1) (⟨k.val, by omega⟩ : Fin 256)) * h (ix2 n k)

/-- Row `n` of the node table against the second half of the weight row. -/
def projSnd (h : (⟨2, ![100000, 128]⟩ : Shape).Idx → EReal) (W : (⟨2, ![1, 256]⟩ : Shape).Idx → EReal)
    (n : Fin 100000) : EReal :=
  ∑ k : Fin 128, W (ix2 (0 : Fin 1) (⟨128 + k.val, by omega⟩ : Fin 256)) * h (ix2 n k)

/-- THE SCORE of every edge: its first endpoint's projection, plus its second endpoint's, plus the bias. -/
def score (h : (⟨2, ![100000, 128]⟩ : Shape).Idx → EReal) (src dst : (⟨1, ![625000]⟩ : Shape).Idx → BitVec 32)
    (W : (⟨2, ![1, 256]⟩ : Shape).Idx → EReal) (b : (⟨1, ![1]⟩ : Shape).Idx → EReal) :
    (⟨2, ![625000, 1]⟩ : Shape).Idx → EReal :=
  fun i => projFst h W (node (src (ix1 (n := 625000) (i 0)))) + projSnd h W (node (dst (ix1 (n := 625000) (i 0))))
    + b (ix1 (0 : Fin 1))

end Cert.EdgeScore

end
-- ==== Proof.Operands.lean ====
/-
  THE REGION'S OPERANDS, as functions of the arguments.

  Before the projection kernel runs, three host operations prepare its operands: the weight row `W : [1, 256]` is cut
  into its two halves `[1, 128]` (columns `0 … 127` and `128 … 255`), and the node table `h : [100000, 128]` is padded
  below with 2400 rows of the value `0` to `[102400, 128]`, a whole number of blocks. Read at an index: entry `(0, k)` of
  a half is `W[0, k]`, respectively `W[0, 128 + k]`; row `n < 100000` of the padded table is row `n` of `h` (the rows below
  are never read by anything that follows). So entry `(0, n)`, `n < 100000`, of each of the kernel's two output arrays
  is the projection of node `n` onto its half of the weights.
-/
import proofs.«420921_j30202210026092_3_alg».proof.Proof.Projection
import proofs.«420921_j30202210026092_3_alg».proof.Proof.EdgeScore
import Idealize.ShloMosaic.Lib.StableHlo.Run
import Idealize.ShloMosaic.Lib.KernelVsHost

set_option maxRecDepth 16384

noncomputable section

open scoped BigOperators

namespace Cert.KernelIdeal.Operands

open Cert.KernelIdeal Cert.KernelIdeal.Gen Cert.KernelIdeal.Projection
open Idealize.ShloMosaic Idealize.ShloMosaic.TcCoe Idealize.SL.Sem
open Idealize.ShloMosaic.ValueIdx Idealize.ShloMosaic.Pipeline Idealize.ShloMosaic.StableHlo

variable (m : (ℓ : Loc nD τ sig) → Buf (Elt Ideal) ℓ)

/-- The five arguments as launched, at their literal types. -/
abbrev table (c : Dev nD) : S100000x128.Idx → EReal := m ((c : Thread nD τ).loc main_arg0)
abbrev srcs (c : Dev nD) : S625000.Idx → BitVec 32 := m ((c : Thread nD τ).loc main_arg1)
abbrev dsts (c : Dev nD) : S625000.Idx → BitVec 32 := m ((c : Thread nD τ).loc main_arg2)
abbrev weights (c : Dev nD) : S1x256.Idx → EReal := m ((c : Thread nD τ).loc main_arg3)
abbrev bias (c : Dev nD) : S1.Idx → EReal := m ((c : Thread nD τ).loc main_arg4)

/-- The first weight row the region finds is the first half of the weights. -/
theorem weightFst_eq (c : Dev nD) :
    weightFst m c = extractStridedSlice S1x128 ![0, 0] (weights m c) slices_S1x256_S1x128_0_0 := by
  show (V m c main_v0 : S1x128.Idx → EReal) = _
  dsimp only [V, V0]
  simp only [hostOps0, hostOps0_1, List.flatten_cons, List.flatten_nil, List.append_nil, List.cons_append, List.nil_append]
  after_results

/-- The second weight row the region finds is the second half of the weights. -/
theorem weightSnd_eq (c : Dev nD) :
    weightSnd m c = extractStridedSlice S1x128 ![0, 128] (weights m c) slices_S1x256_S1x128_0_128 := by
  show (V m c main_v1 : S1x128.Idx → EReal) = _
  dsimp only [V, V0]
  simp only [hostOps0, hostOps0_1, List.flatten_cons, List.flatten_nil, List.append_nil, List.cons_append, List.nil_append]
  after_results

/-- The table the region finds is the node table padded below with 2400 rows of the converted integer `0`. -/
theorem tablePad_eq (c : Dev nD) :
    tablePad m c = pad S102400x128 ![0, 0] ![2400, 0] ![0, 0] (table m c)
      (sitofp (F := Ideal) .f32 (constantI S_ 32 0#32)) pads_S100000x128_S102400x128_024000_000 h_S_ := by
  show (V m c main_v2 : S102400x128.Idx → EReal) = _
  dsimp only [V, V0]
  simp only [hostOps0, hostOps0_1, List.flatten_cons, List.flatten_nil, List.append_nil, List.cons_append, List.nil_append]
  after_results
  rfl

/-- Entry `(0, k)` of the first half is `W[0, k]`. -/
theorem weightFst_apply (c : Dev nD) (a : Fin 1) (k : Fin 128) :
    weightFst m c (ix2 a k) = weights m c (ix2 (0 : Fin 1) (⟨k.val, by omega⟩ : Fin 256)) := by
  rw [weightFst_eq]
  refine extractStridedSlice_apply ![0, 0] (weights m c) slices_S1x256_S1x128_0_0 (ix2 a k) _ (fun b => ?_)
  have ha : a.val = 0 := by omega
  match b with
  | ⟨0, _⟩ => show 0 = 0 + a.val; omega
  | ⟨1, _⟩ => show k.val = 0 + k.val; omega

/-- Entry `(0, k)` of the second half is `W[0, 128 + k]`. -/
theorem weightSnd_apply (c : Dev nD) (a : Fin 1) (k : Fin 128) :
    weightSnd m c (ix2 a k) = weights m c (ix2 (0 : Fin 1) (⟨128 + k.val, by omega⟩ : Fin 256)) := by
  rw [weightSnd_eq]
  refine extractStridedSlice_apply ![0, 128] (weights m c) slices_S1x256_S1x128_0_128 (ix2 a k) _ (fun b => ?_)
  have ha : a.val = 0 := by omega
  match b with
  | ⟨0, _⟩ => show 0 = 0 + a.val; omega
  | ⟨1, _⟩ => show 128 + k.val = 128 + k.val; omega

/-- Row `n < 100000` of the padded table is row `n` of the node table. -/
theorem tablePad_apply (c : Dev nD) (n' : Fin 102400) (n : Fin 100000) (hn : n'.val = n.val) (k : Fin 128) :
    tablePad m c (ix2 n' k) = table m c (ix2 n k) := by
  rw [tablePad_eq]
  refine pad_apply_of_inside ![0, 0] ![2400, 0] ![0, 0] (table m c) _ pads_S100000x128_S102400x128_024000_000 h_S_
    (ix2 n' k) (ix2 n k) (fun b => ?_)
  match b with
  | ⟨0, _⟩ => show n'.val = 0 + n.val * (0 + 1); omega
  | ⟨1, _⟩ => show k.val = 0 + k.val * (0 + 1); omega

/-- The kernel's two output arrays after the region, at their literal type. -/
abbrev outFst (c : Dev nD) : S1x102400.Idx → EReal := (dats m 0 c).arrAt 3 cfg0.N
abbrev outSnd (c : Dev nD) : S1x102400.Idx → EReal := (dats m 0 c).arrAt 4 cfg0.N

theorem outFst_eq (c : Dev nD) : outFst m c = rowsAgainst (tablePad m c) (weightFst m c) := arrayFst m c
theorem outSnd_eq (c : Dev nD) : outSnd m c = rowsAgainst (tablePad m c) (weightSnd m c) := arraySnd m c

/-- Entry `(0, n)`, `n < 100000`, of the first output array is node `n`'s projection onto the first half of the weights. -/
theorem outFst_apply (c : Dev nD) (i : S1x102400.Idx) (n : Fin 100000) (hn : (i 1).val = n.val) :
    outFst m c i = EdgeScore.projFst (table m c) (weights m c) n := by
  rw [outFst_eq]
  show ∑ k : Fin 128, weightFst m c (ix2 (i 0) k) * tablePad m c (ix2 (i 1) k)
    = ∑ k : Fin 128, weights m c (ix2 (0 : Fin 1) (⟨k.val, by omega⟩ : Fin 256)) * table m c (ix2 n k)
  refine Finset.sum_congr rfl fun k _ => ?_
  rw [weightFst_apply m c (i 0) k, tablePad_apply m c (i 1) n hn k]

/-- Entry `(0, n)`, `n < 100000`, of the second output array is node `n`'s projection onto the second half. -/
theorem outSnd_apply (c : Dev nD) (i : S1x102400.Idx) (n : Fin 100000) (hn : (i 1).val = n.val) :
    outSnd m c i = EdgeScore.projSnd (table m c) (weights m c) n := by
  rw [outSnd_eq]
  show ∑ k : Fin 128, weightSnd m c (ix2 (i 0) k) * tablePad m c (ix2 (i 1) k)
    = ∑ k : Fin 128, weights m c (ix2 (0 : Fin 1) (⟨128 + k.val, by omega⟩ : Fin 256)) * table m c (ix2 n k)
  refine Finset.sum_congr rfl fun k _ => ?_
  rw [weightSnd_apply m c (i 0) k, tablePad_apply m c (i 1) n hn k]

end Cert.KernelIdeal.Operands

end
-- ==== Proof.LibFlatGather.lean ====
/-
  A FLAT TABLE READ BY INDEX.

  `x[idx]` of a flat table `x : [N]` at a vector of `E` integer indices lowers to a gather whose start indices are laid
  out as `[E, 1]` (one index vector of length one per result element), the table's one axis collapsed (slice size 1) and
  named by the start index, and no offset axis: the result is `[E]`. This file reads that gather at one element,
  generically in the two sizes and in the element type: result element `e` is the table at the start index
  `idx[e, 0]`, read as a signed integer and clamped into `[0, N − 1]` (a gather clamps every start index so that its
  slice fits; a negative index reads entry `0`, one past the end reads the last entry).
-/
import Idealize.ShloMosaic.PureOps.Ideal
import Idealize.ShloMosaic.Lib.ValueIdx

noncomputable section

namespace Cert.LibFlatGather

open Idealize.ShloMosaic Idealize.ShloMosaic.ValueIdx

/-- The dimension numbers of `x[idx]` for a flat table `x : [N]` and start indices `idx : [E, 1]`, result `[E]`: no
    offset axis, the table's axis collapsed and the one axis the start index names, the index vector on axis 1 of the
    start indices. The conditions `wf` are decided on a program's literal sizes. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into
    `[0, N − 1]`. On the table's one axis the operand index is the clamped start: there is no batching axis, and the axis
    is collapsed, so it carries no offset. -/
theorem flatGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatGatherDims N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (flatGatherDims N E wf).start y idx 0 + (flatGatherDims N E wf).batchCoord y 0
    + (flatGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  -- the start-indices index of result element `e` and index-vector position 0 is `[e, 0]`
  have hsi : (flatGatherDims N E wf).siIdx y ⟨List.idxOf (0 : Fin 1) (flatGatherDims N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- The same for any record equal to `flatGatherDims N E wf`: a program prints its dimension numbers as a record of its
    own with literal sizes, which is this one by `rfl`. -/
theorem flatGather_apply_of {α : Type} {N E w : Nat} (hN : 0 < N)
    {wf : GatherDims.WF ⟨1, ![N]⟩ ⟨2, ![E, 1]⟩ ⟨1, ![E]⟩ [] [0] [] [0] [] 1 ![1]}
    (d : GatherDims ⟨1, ![N]⟩ ⟨2, ![E, 1]⟩ ⟨1, ![E]⟩) (hd : d = flatGatherDims N E wf)
    (x : (⟨1, ![N]⟩ : Shape).Idx → α) (idx : IVec ⟨2, ![E, 1]⟩ w) (y : (⟨1, ![E]⟩ : Shape).Idx) :
    Host.gather d x idx y
      = x (ix1 ⟨min (idx (ix2 (y 0) ⟨0, Nat.one_pos⟩)).toInt.toNat (N - 1), by omega⟩) := by
  subst hd; exact flatGather_apply hN wf x idx y

end Cert.LibFlatGather

end
-- ==== Proof.GatherAdd.lean ====
/-
  THE HOST LINES AFTER THE KERNEL, read at one edge.

  From the kernel's two output rows `p, q : [1, 102400]`, the two endpoint vectors and the bias, the lines after the
  region cut each row back to its first 100000 entries and flatten it, normalise each endpoint vector (a negative
  word has 100000 added), gather one number per edge from each flat table, add the two, add the bias broadcast to every
  edge, and lay the result out as a column `[625000, 1]`. At edge `e` this is

      p[0, node(src[e])] + q[0, node(dst[e])] + b[0],

  `node` being the wrapped word read signed and clamped into the table, as the gather clamps its start index.
-/
import proofs.«420921_j30202210026092_3_alg».proof.KernelIdeal
import proofs.«420921_j30202210026092_3_alg».proof.Proof.LibFlatGather
import proofs.«420921_j30202210026092_3_alg».proof.Proof.EdgeScore
import Idealize.ShloMosaic.Lib.Pipeline.Value
import Idealize.ShloMosaic.Lib.ValueIdx

noncomputable section

namespace Cert.KernelIdeal.Tail

open Cert.KernelIdeal Idealize.ShloMosaic Idealize.ShloMosaic.TcCoe Idealize.ShloMosaic.ValueIdx

variable [Facts]
open Facts₀ Facts

/-- One endpoint vector normalised as the lines after the region normalise it, laid out as a column of start indices. -/
def startIndices (s : S625000.Idx → BitVec 32) : S625000x1.Idx → BitVec 32 :=
  broadcastInDim S625000x1 ![0] bcast_S625000_S625000x1_0
    (select (cmpi .slt s (broadcastInDim S625000 ![] bcast_S_S625000 (constantI S_ 32 0#32)))
      (addi s (broadcastInDim S625000 ![] bcast_S_S625000 (constantI S_ 32 100000#32))) s)

/-- One output row cut back to the real nodes and flattened. -/
def flatTable (p : S1x102400.Idx → EReal) : S100000.Idx → EReal :=
  shapeCast S100000 (extractStridedSlice S1x100000 ![0, 0] p slices_S1x102400_S1x100000_0_0) shapeCasts_S1x100000_S100000

/-- What the lines after the region compute from the two output rows, the endpoints and the bias. -/
def gatherAdd (p q : S1x102400.Idx → EReal) (s d : S625000.Idx → BitVec 32) (b : S1.Idx → EReal) :
    S625000x1.Idx → EReal :=
  shapeCast S625000x1
    (addf (F := Ideal) (φ := .f32)
      (addf (F := Ideal) (φ := .f32)
        (Host.gather gather_S100000_S625000x1_S625000_n_0_n_n_0_1_1 (flatTable p) (startIndices s))
        (Host.gather gather_S100000_S625000x1_S625000_n_0_n_n_0_1_1 (flatTable q) (startIndices d)))
      (broadcastInDim S625000 ![] bcast_S_S625000 (shapeCast S_ b shapeCasts_S1_S_)))
    shapeCasts_S625000_S625000x1

/-- The start index of edge `e`: its endpoint's word, wrapped when negative. -/
theorem startIndices_apply (s : S625000.Idx → BitVec 32) (e : Fin 625000) :
    startIndices s (ix2 e (⟨0, Nat.one_pos⟩ : Fin 1))
      = Scalar.select (IntOp.cmpi .slt (s (ix1 e)) 0#32) (IntOp.addi (s (ix1 e)) 100000#32) (s (ix1 e)) := by
  unfold startIndices
  refine (broadcastInDim_apply _ bcast_S625000_S625000x1_0 _ (ix2 e (⟨0, Nat.one_pos⟩ : Fin 1)) (ix1 e) (fun a => ?_)).trans ?_
  · match a with
    | ⟨0, _⟩ => show e.val = if (625000 : Nat) = 1 then 0 else e.val; rw [if_neg (by decide)]
  · have h0 : broadcastInDim S625000 ![] bcast_S_S625000 (constantI S_ 32 0#32) (ix1 e) = 0#32 :=
      broadcastInDim_apply _ bcast_S_S625000 (constantI S_ 32 0#32) (ix1 e) ix0 (fun a => a.elim0)
    have h1 : broadcastInDim S625000 ![] bcast_S_S625000 (constantI S_ 32 100000#32) (ix1 e) = 100000#32 :=
      broadcastInDim_apply _ bcast_S_S625000 (constantI S_ 32 100000#32) (ix1 e) ix0 (fun a => a.elim0)
    show Scalar.select (IntOp.cmpi .slt (s (ix1 e)) (broadcastInDim S625000 ![] bcast_S_S625000 (constantI S_ 32 0#32) (ix1 e)))
      (IntOp.addi (s (ix1 e)) (broadcastInDim S625000 ![] bcast_S_S625000 (constantI S_ 32 100000#32) (ix1 e))) (s (ix1 e)) = _
    rw [h0, h1]

/-- Entry `n` of a flattened table is entry `(0, n)` of the output row. -/
theorem flatTable_apply (p : S1x102400.Idx → EReal) (n : Fin 100000) :
    flatTable p (ix1 n) = p (ix2 (0 : Fin 1) (⟨n.val, by omega⟩ : Fin 102400)) := by
  unfold flatTable
  refine (shapeCast_apply _ shapeCasts_S1x100000_S100000 (ix1 n) (ix2 (0 : Fin 1) n) ?_).trans ?_
  · rw [Shape.rowMajor_val_two, Shape.rowMajor_val_one]; show 0 * 100000 + n.val = n.val; omega
  · refine extractStridedSlice_apply ![0, 0] p slices_S1x102400_S1x100000_0_0 (ix2 (0 : Fin 1) n) _ (fun a => ?_)
    match a with
    | ⟨0, _⟩ => show 0 = 0 + 0; rfl
    | ⟨1, _⟩ => show n.val = 0 + n.val; omega

/-- THE TAIL AT EDGE `e`: the first row at the first endpoint's node, plus the second row at the second endpoint's,
    plus the bias. -/
theorem gatherAdd_apply (p q : S1x102400.Idx → EReal) (s d : S625000.Idx → BitVec 32) (b : S1.Idx → EReal)
    (e : Fin 625000) (z : Fin 1) :
    gatherAdd p q s d b (ix2 e z)
      = p (ix2 (0 : Fin 1) (⟨(EdgeScore.node (s (ix1 e))).val, by omega⟩ : Fin 102400))
        + q (ix2 (0 : Fin 1) (⟨(EdgeScore.node (d (ix1 e))).val, by omega⟩ : Fin 102400))
        + b (ix1 (0 : Fin 1)) := by
  have hz : z.val = 0 := by omega
  unfold gatherAdd
  refine (shapeCast_apply _ shapeCasts_S625000_S625000x1 (ix2 e z) (ix1 e) ?_).trans ?_
  · rw [Shape.rowMajor_val_two, Shape.rowMajor_val_one]; show e.val = e.val * 1 + z.val; omega
  · rw [addf_apply, addf_apply]
    have hg : ∀ (t : S1x102400.Idx → EReal) (u : S625000.Idx → BitVec 32),
        Host.gather gather_S100000_S625000x1_S625000_n_0_n_n_0_1_1 (flatTable t) (startIndices u) (ix1 e)
          = t (ix2 (0 : Fin 1) (⟨(EdgeScore.node (u (ix1 e))).val, by omega⟩ : Fin 102400)) := by
      intro t u
      rw [LibFlatGather.flatGather_apply_of (N := 100000) (E := 625000) (by decide)
        gather_S100000_S625000x1_S625000_n_0_n_n_0_1_1 rfl]
      show flatTable t (ix1 ⟨min (startIndices u (ix2 e (⟨0, Nat.one_pos⟩ : Fin 1))).toInt.toNat (100000 - 1), _⟩) = _
      simp only [startIndices_apply]
      exact flatTable_apply t (EdgeScore.node (u (ix1 e)))
    have hb : broadcastInDim S625000 ![] bcast_S_S625000 (shapeCast S_ b shapeCasts_S1_S_) (ix1 e) = b (ix1 (0 : Fin 1)) := by
      refine (broadcastInDim_apply _ bcast_S_S625000 _ (ix1 e) ix0 (fun a => a.elim0)).trans ?_
      refine shapeCast_apply _ shapeCasts_S1_S_ ix0 (ix1 (0 : Fin 1)) ?_
      rw [Shape.rowMajor_val_one]
      exact (Shape.rowMajorPi_zero _ _).symm
    rw [hg p s, hg q d, hb]

end Cert.KernelIdeal.Tail

end
-- ==== Proof.Tail.lean ====
/-
  THE KERNEL PROGRAM'S RESULT IS THE SCORE.

  The program's run leaves, in its result buffer, what the host lines after the region compute from the region's exit
  contents: the two output arrays as the eight write-backs left them, every other buffer as it was at the region's
  entry, so the endpoint vectors and the bias as launched. That function, read at an edge, is the first output row at
  the first endpoint's node plus the second row at the second endpoint's node plus the bias; and entry `(0, n)` of an
  output row is node `n`'s projection onto its half of the weights. Together: the score.
-/
import proofs.«420921_j30202210026092_3_alg».proof.Proof.Operands
import proofs.«420921_j30202210026092_3_alg».proof.Proof.GatherAdd
import Idealize.ShloMosaic.Lib.StableHlo.Run

set_option maxRecDepth 16384

noncomputable section

namespace Cert.KernelIdeal.Tail

open Cert.KernelIdeal Cert.KernelIdeal.Gen Cert.KernelIdeal.Projection Cert.KernelIdeal.Operands
open Idealize.ShloMosaic Idealize.ShloMosaic.TcCoe Idealize.SL.Sem
open Idealize.ShloMosaic.ValueIdx Idealize.ShloMosaic.Pipeline Idealize.ShloMosaic.StableHlo

variable (m : (ℓ : Loc nD τ sig) → Buf (Elt Ideal) ℓ)

set_option maxHeartbeats 4000000 in
/-- The result buffer after the lines that follow the region: their function of the two output arrays, the endpoint
    vectors and the bias. -/
theorem afterTail_eq (c : Dev nD) :
    (Pipeline.afterTail₀ cfgs (dats m) 0 (V0 m) [hostOps1] c main_v26 : S625000x1.Idx → EReal)
      = gatherAdd (outFst m c) (outSnd m c) (srcs m c) (dsts m c) (bias m c) := by
  have e3 : withArrays (cfgs 0).spec c (V0 m c) (fun w => (dats m 0 c).arrAt w (cfgs 0).N) (Proc.devRef .tc main_v3_0)
      = outFst m c :=
    Pipeline.withArrays_arr spec0 launch0.win.arr_inj c (V0 m c) (fun w => (dats m 0 c).arrAt w cfg0.N) 3
  have e4 : withArrays (cfgs 0).spec c (V0 m c) (fun w => (dats m 0 c).arrAt w (cfgs 0).N) (Proc.devRef .tc main_v3_1)
      = outSnd m c :=
    Pipeline.withArrays_arr spec0 launch0.win.arr_inj c (V0 m c) (fun w => (dats m 0 c).arrAt w cfg0.N) 4
  have a1 : withArrays (cfgs 0).spec c (V0 m c) (fun w => (dats m 0 c).arrAt w (cfgs 0).N) (Proc.devRef .tc main_arg1)
      = srcs m c :=
    (Pipeline.withArrays_of_ne _ c (V0 m c) _ main_arg1 (by exact (by decide : ∀ w, Pipeline.arrRef spec0 w ≠ main_arg1))).trans
      (V_main_arg1 m c)
  have a2 : withArrays (cfgs 0).spec c (V0 m c) (fun w => (dats m 0 c).arrAt w (cfgs 0).N) (Proc.devRef .tc main_arg2)
      = dsts m c :=
    (Pipeline.withArrays_of_ne _ c (V0 m c) _ main_arg2 (by exact (by decide : ∀ w, Pipeline.arrRef spec0 w ≠ main_arg2))).trans
      (V_main_arg2 m c)
  have a4 : withArrays (cfgs 0).spec c (V0 m c) (fun w => (dats m 0 c).arrAt w (cfgs 0).N) (Proc.devRef .tc main_arg4)
      = bias m c :=
    (Pipeline.withArrays_of_ne _ c (V0 m c) _ main_arg4 (by exact (by decide : ∀ w, Pipeline.arrRef spec0 w ≠ main_arg4))).trans
      (V_main_arg4 m c)
  unfold Pipeline.afterTail₀
  show StableHlo.after hostOps1 _ (Proc.devRef .tc main_v26) = _
  after_results
  rw [e3, e4, a1, a2, a4]
  rfl

/-- THE RESULT: the score of the arguments as launched. -/
theorem result_eq (c : Dev nD) :
    (Pipeline.afterTail₀ cfgs (dats m) 0 (V0 m) [hostOps1] c main_v26 : S625000x1.Idx → EReal)
      = EdgeScore.score (table m c) (srcs m c) (dsts m c) (weights m c) (bias m c) := by
  rw [afterTail_eq]
  funext i
  obtain ⟨e, z, rfl⟩ : ∃ (e : Fin 625000) (z : Fin 1), i = ix2 e z := ⟨i 0, i 1, eq_ix2 i⟩
  rw [gatherAdd_apply, outFst_apply m c _ (EdgeScore.node (srcs m c (ix1 e))) rfl,
    outSnd_apply m c _ (EdgeScore.node (dsts m c (ix1 e))) rfl]
  rfl

/-- THE RUN of the idealized kernel program: every weakly fair execution terminates with the result buffer at the
    score of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v26)
        = EdgeScore.score (table m c) (srcs m c) (dsts m c) (weights m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v26 (Pipeline.mem_restRefs_of main_v26 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.LibRowOps.lean ====
/-
  ROWS OF A TABLE GATHERED BY INDEX AND ADDED BACK BY INDEX, and the linearity that lets a matrix product pass through
  such a sum.

  A graph layer reads rows of a table `x : [N, D]` at source indices (`x[src]`, a gather of whole rows) and adds rows
  into a table at destination indices (a segment sum: a scatter with an add body). This file reads the two operations
  at one element, generically in the sizes: the gather of whole rows is the table's row at the start index, read signed
  and clamped into `[0, N − 1]`; the scatter-add of whole rows adds to element `(n, c)` the updates' elements `(e, c)`
  over the edges `e` whose index, read signed, is exactly `n` (an index outside `[0, N − 1]` hits no row). Last,
  the linearity law over the reals inside the extended reals: a row plus a sum of rows, times a matrix, is the row times
  the matrix plus the sum of the rows times the matrix. In the extended reals multiplication does not distribute over
  addition in general (`⊤ + ⊥`), so the law is stated for coerced reals, where it is the reals' own.
-/
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import Mathlib.Algebra.BigOperators.Ring.Finset

noncomputable section

open scoped BigOperators

namespace Cert.LibRowOps

open Idealize.ShloMosaic Idealize.ShloMosaic.ValueIdx

/-! ## Linearity over the reals inside the extended reals -/

/-- A finite sum of coerced reals is the coercion of the real sum (the coercion `ℝ → EReal` is additive, and a finite
    sum is an iterated addition). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LINEARITY LAW. For real tables `xr : [N, A]`, `wr : [A, B]`, a source map `s` on the edges and any decidable
    relation `hit e n` ("edge `e` lands on row `n`"): the row `n` plus the sum of the source rows of the edges that
    hit `n`, multiplied by `wr`, is the product of row `n` plus the sum over those edges of the products of their
    source rows. All terms are coerced reals, so both sides are the coercion of one real number, and there the
    statement is distributivity and an exchange of two finite sums. -/
theorem matvec_segsum {N A B E : Nat} (xr : Fin N → Fin A → ℝ) (wr : Fin A → Fin B → ℝ) (s : Fin E → Fin N)
    (hit : Fin E → Fin N → Prop) [∀ e n, Decidable (hit e n)] (n : Fin N) (j : Fin B) :
    ∑ k : Fin A, (((xr n k : ℝ) : EReal) + ∑ e ∈ Finset.univ.filter (hit · n), ((xr (s e) k : ℝ) : EReal))
        * ((wr k j : ℝ) : EReal)
      = (∑ k : Fin A, ((xr n k : ℝ) : EReal) * ((wr k j : ℝ) : EReal))
        + ∑ e ∈ Finset.univ.filter (hit · n), ∑ k : Fin A, ((xr (s e) k : ℝ) : EReal) * ((wr k j : ℝ) : EReal) := by
  -- every term is a coerced real: push the coercion outside, to one real number on each side
  simp only [coe_sum, ← EReal.coe_add, ← EReal.coe_mul]
  congr 1
  -- in ℝ: distribute the product over the sum, split the outer sum, exchange the two sums
  simp only [add_mul, Finset.sum_add_distrib, Finset.sum_mul]
  rw [Finset.sum_comm]

/-! ## The gather of whole rows, read at an element -/

/-- The dimension numbers of `x[src]` for a table `x : [N, D]` and start indices `src : [E, 1]`, result `[E, D]`:
    the result's axis 1 is the offset axis (a whole row of width `D`), the table's axis 0 is collapsed (slice size 1)
    and is the one axis the start index names, the index vector lies on axis 1 of the start indices. The conditions
    `wf` are decided on a program's literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the table at row `src[e, 0]`, read as a signed integer and clamped into
    `[0, N − 1]`, and column `c`. On the table's axis 0 the operand index is the clamped start (no batching axis; the
    axis is collapsed, so no offset); on axis 1 the start is `0` (the start index does not name it) and the offset is
    the result's coordinate on its one offset axis. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>
    -- the row: start + 0 + 0, the start read at `[e, 0]` and clamped to `N − 1`
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    -- the column: 0 + 0 + the result's coordinate on its offset axis
    show (rowGatherDims N E D wf).start y idx 1 + (rowGatherDims N E D wf).batchCoord y 1
      + (rowGatherDims N E D wf).offCoord y 1 = _
    rw [GatherDims.batchCoord_eq_zero _ _ _ List.not_mem_nil]
    unfold GatherDims.start
    rw [dif_neg (show (1 : Fin 2) ∉ (rowGatherDims N E D wf).startIndexMap from
      (show ¬ ((1 : Fin 2) ∈ ([0] : List (Fin 2))) by decide))]
    unfold GatherDims.offCoord
    rw [dif_pos (show (1 : Fin 2) ∈ (rowGatherDims N E D wf).sKept from (GatherDims.mem_sKept _ _).mpr
      ⟨(show ¬ ((1 : Fin 2) ∈ ([0] : List (Fin 2))) by decide), List.not_mem_nil⟩)]
    simp only [Nat.add_zero, Nat.zero_add]
    rfl

/-! ## The scatter-add of whole rows, read at an element -/

/-- WHERE AN UPDATE LANDS, for any scatter dimension numbers: update index `j` lands at operand index `i` exactly
    when on every operand axis the start (read signed, not clamped) plus the window coordinate is `i`'s coordinate.
    (The definition asks the sum to be inside the operand on every axis and then takes it as the index; a sum that equals
    a coordinate of an index is inside.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have hf := Option.some.inj h
      intro a
      have := congrArg Fin.val (congrFun hf a)
      simp only at this
      have h0 := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a; refine Fin.ext ?_
    show (d.start j idx a + d.window j a).toNat = (i a).val
    rw [h a]; simp

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a segment sum of rows: operand `[N, D]`, scatter indices `[E, 1]`, updates `[E, D]`:
    the updates' axis 1 is the window axis (a whole row), the operand's axis 0 is the inserted one and the one axis the
    scatter index names, the index vector lies on axis 1 of the scatter indices. The conditions `wf` are decided on a
    program's literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

/-- On the operand's axis 0 the start of update `(e, c)` is the scatter index `dst[e, 0]`, read signed. -/
theorem rowScatter_start0 :
    (rowScatterDims N E D wf).start j idx 0 = (idx (ix2 (j 0) ⟨0, Nat.one_pos⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the operand's axis 1, which the scatter index does not name, the start is `0`. -/
theorem rowScatter_start1 : (rowScatterDims N E D wf).start j idx 1 = 0 := by
  unfold ScatterDims.start
  rw [dif_neg (show (1 : Fin 2) ∉ (rowScatterDims N E D wf).scatterDimsToOperandDims from
    (show ¬ ((1 : Fin 2) ∈ ([0] : List (Fin 2))) by decide))]

/-- On the operand's axis 0, an inserted axis, the window coordinate is `0`. -/
theorem rowScatter_window0 : (rowScatterDims N E D wf).window j 0 = 0 := by
  unfold ScatterDims.window
  rw [dif_neg (fun h => (mem_kept _ _).mp h (List.mem_singleton.mpr rfl))]

/-- On the operand's axis 1 the window coordinate is the update's column. -/
theorem rowScatter_window1 : (rowScatterDims N E D wf).window j 1 = (j 1).val := by
  unfold ScatterDims.window
  rw [dif_pos (show (1 : Fin 2) ∈ (rowScatterDims N E D wf).sKept from (mem_kept _ _).mpr
    (show ¬ ((1 : Fin 2) ∈ ([0] : List (Fin 2))) by decide))]
  rfl

/-- WHERE A ROW UPDATE LANDS: update `(e, c)` lands at operand element `(n, c')` exactly when the scatter index
    `dst[e, 0]`, read signed, is `n` and `c = c'`. In particular a negative index, or one that is `N` or more, lands
    nowhere. -/
theorem rowScatter_resultIdx (i : (⟨2, ![N, D]⟩ : Shape).Idx) :
    (rowScatterDims N E D wf).resultIdx? j idx = some i ↔
      (idx (ix2 (j 0) ⟨0, Nat.one_pos⟩)).toInt = ((i 0).val : Int) ∧ (j 1).val = (i 1).val := by
  rw [resultIdx?_eq_some_iff, Fin.forall_fin_two, rowScatter_start0, rowScatter_start1, rowScatter_window0,
    rowScatter_window1]
  constructor
  · rintro ⟨h0, h1⟩; exact ⟨by simpa using h0, by exact_mod_cast (by simpa using h1)⟩
  · rintro ⟨h0, h1⟩
    exact ⟨by simpa using h0, by simpa using (by exact_mod_cast h1 : ((j 1).val : Int) = ((i 1).val : Int))⟩

/-- The same with the update index given by its coordinates `(e, b)`. -/
theorem rowScatter_resultIdx_ix2 (e : Fin E) (b : Fin D) (i : (⟨2, ![N, D]⟩ : Shape).Idx) :
    (rowScatterDims N E D wf).resultIdx? (ix2 e b) idx = some i ↔
      (idx (ix2 e ⟨0, Nat.one_pos⟩)).toInt = ((i 0).val : Int) ∧ b.val = (i 1).val :=
  rowScatter_resultIdx wf (ix2 e b) idx i

/-- THE ROW SCATTER-ADD READ AT `(n, c)`: the operand's element plus the sum, over the edges `e` whose scatter index
    read signed is `n`, of the updates' element `(e, c)`. The sum over the update indices `(e, b)` that land at
    `(n, c)` is a double sum over `e` and `b`; for each `e` the inner sum has at most the one term `b = c`. -/
theorem rowScatterAdd_apply (x : (⟨2, ![N, D]⟩ : Shape).Idx → EReal) (upd : (⟨2, ![E, D]⟩ : Shape).Idx → EReal)
    (i : (⟨2, ![N, D]⟩ : Shape).Idx) :
    Ideal.hostScatterAdd (rowScatterDims N E D wf) x idx upd i
      = x i + ∑ e ∈ Finset.univ.filter (fun e : Fin E => (idx (ix2 e ⟨0, Nat.one_pos⟩)).toInt = ((i 0).val : Int)),
          upd (ix2 e (i 1)) := by
  unfold Ideal.hostScatterAdd
  congr 1
  rw [Finset.sum_filter, Finset.sum_filter, sum_idx2]
  refine Finset.sum_congr rfl fun e _ => ?_
  simp only [rowScatter_resultIdx_ix2]
  by_cases he : (idx (ix2 e ⟨0, Nat.one_pos⟩)).toInt = ((i 0).val : Int)
  · rw [if_pos he]
    rw [Finset.sum_eq_single (show Fin D from i 1)]
    · rw [if_pos ⟨he, rfl⟩]
    · intro b _ hb
      rw [if_neg (fun h => hb (Fin.ext h.2))]
    · intro h; exact absurd (Finset.mem_univ _) h
  · rw [if_neg he]
    exact Finset.sum_eq_zero fun b _ => if_neg (fun h => he h.1)

end Scatter

/-! ## The same three readings for a record that IS one of these dimension numbers

A program prints its dimension numbers as a record of its own, with literal sizes; such a record is one of the two above
by `rfl`, and these forms take the record and that equation. -/

/-- `rowGather_apply` for any record equal to `rowGatherDims N E D wf`. -/
theorem rowGather_apply_of {α : Type} {N E D w : Nat} (hN : 0 < N)
    {wf : GatherDims.WF ⟨2, ![N, D]⟩ ⟨2, ![E, 1]⟩ ⟨2, ![E, D]⟩ [1] [0] [] [0] [] 1 ![1, D]}
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact rowGather_apply hN wf x idx y

/-- `rowScatter_resultIdx` for any record equal to `rowScatterDims N E D wf`. -/
theorem rowScatter_resultIdx_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (j : (⟨2, ![E, D]⟩ : Shape).Idx) (idx : IVec ⟨2, ![E, 1]⟩ w) (i : (⟨2, ![N, D]⟩ : Shape).Idx) :
    d.resultIdx? j idx = some i ↔
      (idx (ix2 (j 0) ⟨0, Nat.one_pos⟩)).toInt = ((i 0).val : Int) ∧ (j 1).val = (i 1).val := by
  subst hd; exact rowScatter_resultIdx wf j idx i

/-- `rowScatterAdd_apply` for any record equal to `rowScatterDims N E D wf`. -/
theorem rowScatterAdd_apply_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (x : (⟨2, ![N, D]⟩ : Shape).Idx → EReal) (idx : IVec ⟨2, ![E, 1]⟩ w) (upd : (⟨2, ![E, D]⟩ : Shape).Idx → EReal)
    (i : (⟨2, ![N, D]⟩ : Shape).Idx) :
    Ideal.hostScatterAdd d x idx upd i
      = x i + ∑ e ∈ Finset.univ.filter (fun e : Fin E => (idx (ix2 e ⟨0, Nat.one_pos⟩)).toInt = ((i 0).val : Int)),
          upd (ix2 e (i 1)) := by
  subst hd; exact rowScatterAdd_apply wf idx x upd i

end Cert.LibRowOps

end
-- ==== Proof.ReferenceScore.lean ====
/-
  THE REFERENCE COMPUTES THE SCORE.

  The reference gathers, for every edge, the whole row of the node table at each endpoint (a gather of rows: the row at
  the endpoint's word, negative words wrapped, the result clamped into the table), contracts the gathered rows
  `[625000, 128]` with each half of the weight row `[1, 128]` over the 128 features, adds the two products and adds the
  bias, broadcast to every edge. At edge `e`:

      Σ_k h[node(src[e]), k] · W[0, k]  +  Σ_k h[node(dst[e]), k] · W[0, 128 + k]  +  b[0],

  which is the score with each product's two factors exchanged.
-/
import proofs.«420921_j30202210026092_3_alg».proof.Proof.Gen.ReferenceIdeal.Read
import proofs.«420921_j30202210026092_3_alg».proof.Proof.LibRowOps
import proofs.«420921_j30202210026092_3_alg».proof.Proof.EdgeScore

noncomputable section

open scoped BigOperators

namespace Cert.ReferenceIdeal.Score

open Cert.ReferenceIdeal Cert.ReferenceIdeal.Gen Cert.ReferenceIdeal.Read
open Idealize.ShloMosaic Idealize.ShloMosaic.TcCoe Idealize.ShloMosaic.ValueIdx

/-- The start index of the first gather at edge `e`: the first endpoint's word, wrapped when negative. -/
theorem startFst (x1 : S625000.Idx → BitVec 32) (e : Fin 625000) :
    val_main_v7 (F := Ideal) x1 (ix2 e (⟨0, Nat.one_pos⟩ : Fin 1))
      = Scalar.select (IntOp.cmpi .slt (x1 (ix1 e)) 0#32) (IntOp.addi (x1 (ix1 e)) 100000#32) (x1 (ix1 e)) := by
  have hi : idx_main_v7 (ix2 e (⟨0, Nat.one_pos⟩ : Fin 1)) = ix1 e := funext fun a => match a with | ⟨0, _⟩ => rfl
  rw [val_main_v7_apply, val_main_v6_apply, val_main_v3_apply, val_main_v5_apply, val_main_v2_apply, val_main_v4_apply,
    val_main_c_apply, val_main_c_0_apply, hi]

/-- The start index of the second gather at edge `e`: the second endpoint's word, wrapped when negative. -/
theorem startSnd (x2 : S625000.Idx → BitVec 32) (e : Fin 625000) :
    val_main_v14 (F := Ideal) x2 (ix2 e (⟨0, Nat.one_pos⟩ : Fin 1))
      = Scalar.select (IntOp.cmpi .slt (x2 (ix1 e)) 0#32) (IntOp.addi (x2 (ix1 e)) 100000#32) (x2 (ix1 e)) := by
  have hi : idx_main_v14 (ix2 e (⟨0, Nat.one_pos⟩ : Fin 1)) = ix1 e := funext fun a => match a with | ⟨0, _⟩ => rfl
  rw [val_main_v14_apply, val_main_v13_apply, val_main_v10_apply, val_main_v12_apply, val_main_v9_apply, val_main_v11_apply,
    val_main_c_1_apply, val_main_c_2_apply, hi]

/-- The first gathered table at `(e, k)`: feature `k` of the node the first endpoint names. -/
theorem gatheredFst_apply (x0 : S100000x128.Idx → EReal) (x1 : S625000.Idx → BitVec 32) (e : Fin 625000) (k : Fin 128) :
    val_main_v8 (F := Ideal) x0 x1 (ix2 e k) = x0 (ix2 (EdgeScore.node (x1 (ix1 e))) k) := by
  unfold val_main_v8
  rw [LibRowOps.rowGather_apply_of (N := 100000) (E := 625000) (D := 128) (by decide)
    gather_S100000x128_S625000x1_S625000x128_1_0_n_n_0_1_1128 rfl]
  show x0 (ix2 ⟨min (val_main_v7 (F := Ideal) x1 (ix2 e (⟨0, Nat.one_pos⟩ : Fin 1))).toInt.toNat (100000 - 1), _⟩ k) = _
  simp only [startFst]
  rfl

/-- The second gathered table at `(e, k)`: feature `k` of the node the second endpoint names. -/
theorem gatheredSnd_apply (x0 : S100000x128.Idx → EReal) (x2 : S625000.Idx → BitVec 32) (e : Fin 625000) (k : Fin 128) :
    val_main_v15 (F := Ideal) x0 x2 (ix2 e k) = x0 (ix2 (EdgeScore.node (x2 (ix1 e))) k) := by
  unfold val_main_v15
  rw [LibRowOps.rowGather_apply_of (N := 100000) (E := 625000) (D := 128) (by decide)
    gather_S100000x128_S625000x1_S625000x128_1_0_n_n_0_1_1128 rfl]
  show x0 (ix2 ⟨min (val_main_v14 (F := Ideal) x2 (ix2 e (⟨0, Nat.one_pos⟩ : Fin 1))).toInt.toNat (100000 - 1), _⟩ k) = _
  simp only [startSnd]
  rfl

/-- THE REFERENCE'S RESULT IS THE SCORE: edge by edge the two contractions are the two projections with the factors of
    every product exchanged, and the broadcast bias is `b[0]`. -/
theorem result_eq (x0 : S100000x128.Idx → EReal) (x1 x2 : S625000.Idx → BitVec 32) (x3 : S1x256.Idx → EReal)
    (x4 : S1.Idx → EReal) :
    val_main_v21 (F := Ideal) x0 x1 x2 x3 x4 = EdgeScore.score x0 x1 x2 x3 x4 := by
  funext i
  obtain ⟨e, z, rfl⟩ : ∃ (e : Fin 625000) (z : Fin 1), i = ix2 e z := ⟨i 0, i 1, eq_ix2 i⟩
  have hz : z.val = 0 := by omega
  have hl16 : ∀ k : Fin 128, lidx_main_v16 (ix2 e z) k = ix2 e k := fun k => funext fun a => match a with | ⟨0, _⟩ => rfl | ⟨1, _⟩ => rfl
  have hl17 : ∀ k : Fin 128, lidx_main_v17 (ix2 e z) k = ix2 e k := fun k => funext fun a => match a with | ⟨0, _⟩ => rfl | ⟨1, _⟩ => rfl
  have hr16 : ∀ k : Fin 128, idx_main_v0 (ridx_main_v16 (ix2 e z) k) = ix2 (0 : Fin 1) (⟨k.val, by omega⟩ : Fin 256) := fun k =>
    funext fun a => Fin.ext (match a with | ⟨0, _⟩ => hz | ⟨1, _⟩ => rfl)
  have hr17 : ∀ k : Fin 128, idx_main_v1 (ridx_main_v17 (ix2 e z) k) = ix2 (0 : Fin 1) (⟨128 + k.val, by omega⟩ : Fin 256) := fun k =>
    funext fun a => Fin.ext (match a with | ⟨0, _⟩ => hz | ⟨1, _⟩ => rfl)
  have hb : idx_main_v19 (idx_main_v20 (ix2 e z)) = ix1 (0 : Fin 1) := funext fun a => match a with | ⟨0, _⟩ => rfl
  show val_main_v21 (F := Ideal) x0 x1 x2 x3 x4 (ix2 e z)
    = EdgeScore.projFst x0 x3 (EdgeScore.node (x1 (ix1 e))) + EdgeScore.projSnd x0 x3 (EdgeScore.node (x2 (ix1 e)))
      + x4 (ix1 (0 : Fin 1))
  rw [val_main_v21_apply, val_main_v18_apply, val_main_v16_apply, val_main_v17_apply, val_main_v20_apply, val_main_v19_apply, hb]
  unfold EdgeScore.projFst EdgeScore.projSnd
  show (∑ k : Fin 128, _) + (∑ k : Fin 128, _) + x4 (ix1 (0 : Fin 1)) = (∑ k : Fin 128, _) + (∑ k : Fin 128, _) + x4 (ix1 (0 : Fin 1))
  congr 1
  congr 1
  · refine Finset.sum_congr rfl fun k _ => ?_
    rw [hl16, gatheredFst_apply, val_main_v0_apply, hr16, mul_comm]
  · refine Finset.sum_congr rfl fun k _ => ?_
    rw [hl17, gatheredSnd_apply, val_main_v1_apply, hr17, mul_comm]

end Cert.ReferenceIdeal.Score

end
-- ==== Proof.lean ====
/-
  EDGE SCORES OF A GRAPH: project, then gather, against gather, then project.

  Both programs score every edge `e` of a graph with 100000 nodes (features `h : [100000, 128]`) and 625000 edges
  (endpoints `src, dst`) by a linear layer on the concatenated endpoint features, weights `W : [1, 256]`, bias `b`:

      score[e, 0] = Σ_k W[0, k] · h[node(src[e]), k]  +  Σ_k W[0, 128 + k] · h[node(dst[e]), k]  +  b[0]

  (`Proof/EdgeScore.lean`; `node` wraps a negative index and clamps into the table, as both programs' gathers do).

  The reference gathers the two endpoint rows of every edge and contracts them with the two halves of the weights
  (`Proof/ReferenceScore.lean`, over the generated reading of the reference one operation at a time). The kernel
  program first contracts EVERY node's row with each half, in a pallas_call over eight blocks of 12800 rows of the
  zero-padded table, into two rows of 102400 numbers (`Proof/Projection.lean`: what each block writes back and that the
  blocks tile the rows; `Proof/Operands.lean`: the padded table and the two halves as the region finds them), and then
  gathers two numbers per edge and adds the bias on the host (`Proof/GatherAdd.lean`, `Proof/Tail.lean`). At one edge
  the two sides are the same sum with the two factors of each product exchanged: multiplication of extended reals
  commutes, infinities included, so no input needs to be finite for the equality, and the padded rows are never read.

  The three frame claims are the generated frames (the kernel program's at both instances; the reference's is its
  generated run with the result dropped). Nothing was rewritten when the kernel program was idealized, so the
  preservation claim has no conjunct.
-/
import proofs.«420921_j30202210026092_3_alg».proof.Defs
import proofs.«420921_j30202210026092_3_alg».proof.Proof.Gen.Kernel
import proofs.«420921_j30202210026092_3_alg».proof.Proof.Gen.Kernel.Skeleton
import proofs.«420921_j30202210026092_3_alg».proof.Proof.Gen.Kernel.Launch
import proofs.«420921_j30202210026092_3_alg».proof.Proof.Gen.Kernel.Points
import proofs.«420921_j30202210026092_3_alg».proof.Proof.Gen.Kernel.Frame
import proofs.«420921_j30202210026092_3_alg».proof.Proof.Gen.KernelIdeal
import proofs.«420921_j30202210026092_3_alg».proof.Proof.Gen.KernelIdeal.Skeleton
import proofs.«420921_j30202210026092_3_alg».proof.Proof.Gen.KernelIdeal.Launch
import proofs.«420921_j30202210026092_3_alg».proof.Proof.Gen.KernelIdeal.Points
import proofs.«420921_j30202210026092_3_alg».proof.Proof.Gen.KernelIdeal.Frame
import proofs.«420921_j30202210026092_3_alg».proof.Proof.Gen.ReferenceIdeal
import proofs.«420921_j30202210026092_3_alg».proof.Proof.Gen.Pre_finite_inputs
import proofs.«420921_j30202210026092_3_alg».proof.Proof.Gen.ReferenceIdeal.Run
import proofs.«420921_j30202210026092_3_alg».proof.Proof.Gen.ReferenceIdeal.Read
import proofs.«420921_j30202210026092_3_alg».proof.Proof.Tail
import proofs.«420921_j30202210026092_3_alg».proof.Proof.ReferenceScore
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run, the result's conjunct dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both idealized programs end with the result buffer at the score
    of those arguments: the kernel program by its run read through the region and the host lines around it, the
    reference by its generated run and the reading of its last stage. -/
theorem algebraic : Cert.algebraic_KernelIdeal_ReferenceIdeal := by
  intro m ρ m' ρ' _ hagree
  refine ⟨fun c => Cert.EdgeScore.score (Cert.KernelIdeal.Operands.table m c) (Cert.KernelIdeal.Operands.srcs m c)
      (Cert.KernelIdeal.Operands.dsts m c) (Cert.KernelIdeal.Operands.weights m c) (Cert.KernelIdeal.Operands.bias m c),
    Cert.KernelIdeal.Tail.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v21_eq _ _ _ _ _)).trans
    ((Cert.ReferenceIdeal.Score.result_eq _ _ _ _ _).trans ?_)
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
